-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x27278 : Shape := ⟨2, ![1024, 27278]⟩
abbrev S_ : Shape := ⟨0, ![]⟩

class Facts : Prop where
  bcast_S_S1024x27278 : S_.BroadcastsInDim S1024x27278 (![] : Fin 0 → Fin S1024x27278.rank)
  reducesTo_S1024x27278_S_d0_1 : S1024x27278.ReducesTo [0, 1] S_
  h_S_ : 0 < S_.numel

variable [Facts]

def fn {F : FTy → Type} [FloatOps F] (main_arg0 : FVec F S1024x27278 .f32) (main_arg1 : FVec F S1024x27278 .f32) : IVec S_ 1 :=
  let main_v0 : FVec F S1024x27278 .f32 := Host.absf main_arg0
  let main_cst : FVec F S_ .f32 := constant S_ .f32 0x7F800000#32
  let main_v1 : FVec F S1024x27278 .f32 := broadcastInDim S1024x27278 ![] bcast_S_S1024x27278 main_cst
  let main_v2 : IVec S1024x27278 1 := cmpf .olt main_v0 main_v1
  let main_c : IVec S_ 1 := constantI S_ 1 1#1
  let main_v3 : IVec S_ 1 := (fun x v => Host.reduce IntOp.andi x v reducesTo_S1024x27278_S_d0_1 h_S_) main_v2 main_c
  let main_v4 : FVec F S1024x27278 .f32 := Host.absf main_arg1
  let main_cst_0 : FVec F S_ .f32 := constant S_ .f32 0x7F800000#32
  let main_v5 : FVec F S1024x27278 .f32 := broadcastInDim S1024x27278 ![] bcast_S_S1024x27278 main_cst_0
  let main_v6 : IVec S1024x27278 1 := cmpf .olt main_v4 main_v5
  let main_c_1 : IVec S_ 1 := constantI S_ 1 1#1
  let main_v7 : IVec S_ 1 := (fun x v => Host.reduce IntOp.andi x v reducesTo_S1024x27278_S_d0_1 h_S_) main_v6 main_c_1
  let main_v8 : IVec S_ 1 := andi main_v3 main_v7
  main_v8
-- ==== Kernel.lean ====
abbrev S1024x27278 : Shape := ⟨2, ![1024, 27278]⟩
abbrev S1x1 : Shape := ⟨2, ![1, 1]⟩
abbrev S64x27278 : Shape := ⟨2, ![64, 27278]⟩
abbrev S1x64x27278 : Shape := ⟨3, ![1, 64, 27278]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S1024x27278, .f32⟩
  | .hbm, ⟨1, _⟩ => ⟨S1024x27278, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S64x27278, .f32⟩
  | .local _ .vmem, ⟨1, _⟩ => ⟨S64x27278, .f32⟩
  | .local _ .vmem, ⟨2, _⟩ => ⟨S64x27278, .f32⟩
  | .local _ .vmem, ⟨3, _⟩ => ⟨S64x27278, .f32⟩
  | .local _ .vmem, ⟨4, _⟩ => ⟨S1x1, .f32⟩
  | .local _ .vmem, ⟨5, _⟩ => ⟨S1x1, .f32⟩
  | _, _ => ⟨S1024x27278, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_6 : BitVec 32 := 0#32
  let v22 : BitVec 1 := Scalar.cmpi .ne v21 c0_i32_6
  v22

def k0_cond2 (i : grid0.Coords) : BitVec 1 :=
  let arg0 : BitVec 32 := BitVec.ofNat 32 (i 0).val
  let c0_i32_7 : BitVec 32 := 0#32
  let v23 : BitVec 1 := Scalar.cmpi .ne arg0 c0_i32_7
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x27278 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x27278 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S64x27278_S64x27278_0_0 : ∀ a, (![0, 0] : Fin 2 → Nat) a + S64x27278.size a ≤ S64x27278.size a
  h_S64x27278 : 0 < S64x27278.numel
  shapeCasts_S64x27278_S1x64x27278 : S64x27278.ShapeCasts S1x64x27278
  reduces_S1x64x27278_S1 : S1x64x27278.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x27278.size a ≤ S1024x27278.size a
  hwx0_0 : ∀ i : grid0.Coords, EltTy.bits .f32 = 32 ∨ (Rect.block (s := S1024x27278) S64x27278.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x27278.size a ≤ S1024x27278.size a
  hwx0_1 : ∀ i : grid0.Coords, EltTy.bits .f32 = 32 ∨ (Rect.block (s := S1024x27278) S64x27278.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S64x27278.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x27278.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S1024x27278 : Shape := ⟨2, ![1024, 27278]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1024x27278, .f32⟩
  | .hbm, ⟨1, _⟩ => ⟨S1024x27278, .f32⟩
  | .hbm, ⟨2, _⟩ => ⟨S_, .f32⟩
  | .hbm, ⟨3, _⟩ => ⟨S1024x27278, .f32⟩
  | .hbm, ⟨4, _⟩ => ⟨S1024x27278, .i1⟩
  | .hbm, ⟨5, _⟩ => ⟨S1024x27278, .f32⟩
  | .hbm, ⟨6, _⟩ => ⟨S1024x27278, .f32⟩
  | .hbm, ⟨7, _⟩ => ⟨S_, .f32⟩
  | .hbm, ⟨8, _⟩ => ⟨S_, .f32⟩
  | .hbm, ⟨9, _⟩ => ⟨S1024x27278, .f32⟩
  | .hbm, ⟨10, _⟩ => ⟨S1024x27278, .f32⟩
  | .hbm, ⟨11, _⟩ => ⟨S_, .f32⟩
  | .hbm, ⟨12, _⟩ => ⟨S_, .f32⟩
  | .hbm, ⟨13, _⟩ => ⟨S1024x27278, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | _, _ => ⟨S1024x27278, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S1024x27278 : S_.BroadcastsInDim S1024x27278 (![] : Fin 0 → Fin S1024x27278.rank)
  reducesTo_S1024x27278_S_d0_1 : S1024x27278.ReducesTo [0, 1] S_
  h_S_ : 0 < S_.numel
  natLt_1_32 : 1 < 32

variable [Facts₀]

class Facts : Prop extends Facts₀ where

variable [Facts]
-- ==== Proof.BitsPoints.lean ====
/-
  The sixteen grid points of the block kernel fall into two kinds: the first point, where the two running totals
  (the sum of masked squared errors and the count of kept entries) are SET to the block's values, and the fifteen
  later points, where the block's values are ADDED to what the point before left. The kernel decides the kind by
  two conditions on the grid coordinate; here they are put in closed form over the grid, and each window is shown
  to be in use at every point (one of the two conditions always holds, so the totals' windows are never idle).
-/
import proofs.«125894_g41051297415206_cont_8to1_b_1504_3_alg».proof.Proof.Gen.Kernel.Frame
import proofs.«125894_g41051297415206_cont_8to1_b_1504_3_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The kernel's first condition (the coordinate equals 0) holds at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- Its second condition (the coordinate differs from 0) holds from the second point on. -/
theorem later_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- The input windows are read at every point. -/
theorem live0 : ∀ i : grid0.Coords, cfg0.idle 0 i = false := fun _ => rfl
theorem live1 : ∀ i : grid0.Coords, cfg0.idle 1 i = false := fun _ => rfl

/-- At every coordinate one of the two conditions holds: a window stored under both is never idle. -/
theorem some_cond : ∀ n : Fin 16,
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by
  decide +kernel

/-- The two totals' windows are stored at every point. -/
theorem live2 : ∀ i : grid0.Coords, cfg0.idle 2 i = false := fun i => some_cond (i 0)
theorem live3 : ∀ i : grid0.Coords, cfg0.idle 3 i = false := fun i => some_cond (i 0)

/-- Each window's current staging memref at point t, as the pipeline passes it to the body, and its wholeness. -/
abbrev ms0_0 (t : Fin cfg0.N) : Memref sig .tc .vmem S64x27278 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x27278 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

/-- One staging buffer of each total's window, through which its contents are stated. -/
abbrev VO2 : View sig .tc .vmem S1x1 .f32 := (Memref.whole cc0_stg2_0 : Memref sig .tc .vmem S1x1 .f32).view
abbrev VO3 : View sig .tc .vmem S1x1 .f32 := (Memref.whole cc0_stg3_0 : Memref sig .tc .vmem S1x1 .f32).view

end Cert.Kernel.Hand

end
-- ==== Proof.BitsRunFirst.lean ====
/-
  The body at the FIRST grid point: it loads the two input blocks, and stores the block's masked sum of squared
  errors into the first total's buffer and the block's count of kept entries into the second, whatever those
  buffers held. What each buffer ends with is recorded as the list of pieces the stores wrote.
-/
import proofs.«125894_g41051297415206_cont_8to1_b_1504_3_alg».proof.Proof.BitsPoints

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the first condition holds and the second does not: on whole staging memrefs, the inputs' at
    their contents and the totals' at anything, the body runs to the continuation with the inputs' as they were and
    each total's buffer with its pieces written. -/
noncomputable def runFirst (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 : Vec F S64x27278 .f32) (x1 : Vec F S64x27278 .f32) :
    Σ' (L2 : List (View.Piece (Elt F) S1x1 .f32)) (L3 : List (View.Piece (Elt F) S1x1 .f32)),
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__mse_block_kernel i arg1 harg1 arg2 harg2 arg3 harg3 arg4 harg4) K := by
  refine ⟨?_, ?_, fun E K => ?run⟩
  case run =>
    simp only [cc0__mse_block_kernel_eq_skeleton]; unfold cc0__mse_block_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.BitsRunLater.lean ====
/-
  The body at a LATER grid point: it loads the two input blocks and the two running totals, and stores each total
  plus the block's value (the masked sum of squared errors, the count of kept entries) back into its buffer.
  What each buffer ends with is recorded as the list of pieces the stores wrote.
-/
import proofs.«125894_g41051297415206_cont_8to1_b_1504_3_alg».proof.Proof.BitsPoints

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the first condition fails and the second holds: on whole staging memrefs, the inputs' at their
    contents and the totals' at their running contents, the body runs to the continuation with the inputs' as they
    were and each total's buffer with its pieces written. -/
noncomputable def runLater (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 : Vec F S64x27278 .f32) (x1 : Vec F S64x27278 .f32) (xo2 : Vec F S1x1 .f32) (xo3 : Vec F S1x1 .f32) :
    Σ' (L2 : List (View.Piece (Elt F) S1x1 .f32)) (L3 : List (View.Piece (Elt F) S1x1 .f32)),
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__mse_block_kernel i arg1 harg1 arg2 harg2 arg3 harg3 arg4 harg4) K := by
  refine ⟨?_, ?_, fun E K => ?run⟩
  case run =>
    simp only [cc0__mse_block_kernel_eq_skeleton]; unfold cc0__mse_block_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.BitsFrame.lean ====
/-
  The pipeline's run, point by point. After the first point each total's buffer holds what the first-point body
  wrote; after every later point it holds what the later-point body wrote over what the point before left (the
  totals' block index never moves and the buffers are written back only after the last point, so nothing touches
  them in between). With that as the proof data, the body's obligation holds at every point, the pipeline runs, and
  the program's two argument arrays end as they began.
-/
import proofs.«125894_g41051297415206_cont_8to1_b_1504_3_alg».proof.Proof.BitsRunFirst
import proofs.«125894_g41051297415206_cont_8to1_b_1504_3_alg».proof.Proof.BitsRunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two bodies leave in the totals' buffers -/

theorem coverFirst2 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 x1 : Vec F S64x27278 .f32) (y : S1x1.Idx) :
    ∃ pc ∈ (runFirst c i arg1 harg1 arg2 harg2 arg3 harg3 arg4 harg4 hc1 hc2 x0 x1).1, y ∈ pc.1.set :=
  View.cover_of_tiledL (runFirst c i arg1 harg1 arg2 harg2 arg3 harg3 arg4 harg4 hc1 hc2 x0 x1).1 S1x1.size (by sl_kernel_rfl) y

theorem coverFirst3 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 x1 : Vec F S64x27278 .f32) (y : S1x1.Idx) :
    ∃ pc ∈ (runFirst c i arg1 harg1 arg2 harg2 arg3 harg3 arg4 harg4 hc1 hc2 x0 x1).2.1, y ∈ pc.1.set :=
  View.cover_of_tiledL (runFirst c i arg1 harg1 arg2 harg2 arg3 harg3 arg4 harg4 hc1 hc2 x0 x1).2.1 S1x1.size (by sl_kernel_rfl) y

theorem coverLater2 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 x1 : Vec F S64x27278 .f32) (xo2 xo3 : Vec F S1x1 .f32) (y : S1x1.Idx) :
    ∃ pc ∈ (runLater c i arg1 harg1 arg2 harg2 arg3 harg3 arg4 harg4 hc1 hc2 x0 x1 xo2 xo3).1, y ∈ pc.1.set :=
  View.cover_of_tiledL (runLater c i arg1 harg1 arg2 harg2 arg3 harg3 arg4 harg4 hc1 hc2 x0 x1 xo2 xo3).1 S1x1.size (by sl_kernel_rfl) y

theorem coverLater3 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 x1 : Vec F S64x27278 .f32) (xo2 xo3 : Vec F S1x1 .f32) (y : S1x1.Idx) :
    ∃ pc ∈ (runLater c i arg1 harg1 arg2 harg2 arg3 harg3 arg4 harg4 hc1 hc2 x0 x1 xo2 xo3).2.1, y ∈ pc.1.set :=
  View.cover_of_tiledL (runLater c i arg1 harg1 arg2 harg2 arg3 harg3 arg4 harg4 hc1 hc2 x0 x1 xo2 xo3).2.1 S1x1.size (by sl_kernel_rfl) y

/-- What the first-point body leaves in the two totals' buffers: its pieces read back. -/
def outFirst (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 x1 : Vec F S64x27278 .f32) : Vec F S1x1 .f32 × Vec F S1x1 .f32 :=
  (VO2.read (Elt F) (VO2.writes (Elt F) VO2.junk (runFirst c i arg1 harg1 arg2 harg2 arg3 harg3 arg4 harg4 hc1 hc2 x0 x1).1),
   VO3.read (Elt F) (VO3.writes (Elt F) VO3.junk (runFirst c i arg1 harg1 arg2 harg2 arg3 harg3 arg4 harg4 hc1 hc2 x0 x1).2.1))

/-- What a later-point body leaves there, over what the point before left. -/
def outLater (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 x1 : Vec F S64x27278 .f32) (xo : Vec F S1x1 .f32 × Vec F S1x1 .f32) : Vec F S1x1 .f32 × Vec F S1x1 .f32 :=
  (VO2.read (Elt F) (VO2.writes (Elt F) VO2.junk (runLater c i arg1 harg1 arg2 harg2 arg3 harg3 arg4 harg4 hc1 hc2 x0 x1 xo.1 xo.2).1),
   VO3.read (Elt F) (VO3.writes (Elt F) VO3.junk (runLater c i arg1 harg1 arg2 harg2 arg3 harg3 arg4 harg4 hc1 hc2 x0 x1 xo.1 xo.2).2.1))

/-! ## The totals after each point -/

theorem not_later_zero (hn : 0 < cfg0.N) : ¬k0_cond2 (grid0.coords ⟨0, hn⟩) = 1#1 := fun h =>
  absurd ((later_iff ⟨0, hn⟩).mp h) (Nat.not_succ_le_zero 0)
theorem not_first_succ (n : ℕ) (hn : n + 1 < cfg0.N) : ¬k0_cond1 (grid0.coords ⟨n + 1, hn⟩) = 1#1 := fun h =>
  absurd ((first_iff ⟨n + 1, hn⟩).mp h) (Nat.succ_ne_zero n)

/-- The two totals' buffers after the body at position n: the first-point body's result at 0, and at n + 1 the
    later-point body's result over what position n left. -/
def outsAt (c : Dev nD) : (n : ℕ) → n < cfg0.N → Vec F S1x1 .f32 × Vec F S1x1 .f32
  | 0, hn => outFirst c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((first_iff ⟨0, hn⟩).mpr rfl) (not_later_zero hn)
      (iblk m c 0 ⟨0, hn⟩) (iblk m c 1 ⟨0, hn⟩)
  | n + 1, hn => outLater c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (not_first_succ n hn)
      ((later_iff ⟨n + 1, hn⟩).mpr (Nat.succ_pos n)) (iblk m c 0 ⟨n + 1, hn⟩) (iblk m c 1 ⟨n + 1, hn⟩)
      (outsAt c n (Nat.lt_of_succ_lt hn))

theorem outsAt_first (c : Dev nD) (t : Fin cfg0.N) (h0 : t.val = 0) :
    outsAt m c t.val t.isLt = outFirst c (grid0.coords t) (ms0_0 t) (hs0_0 t) (ms0_1 t) (hs0_1 t) (ms0_2 t) (hs0_2 t) (ms0_3 t) (hs0_3 t)
      ((first_iff t).mpr h0) (fun h => absurd ((later_iff t).mp h) (by omega)) (iblk m c 0 t) (iblk m c 1 t) := by
  obtain ⟨n, hn⟩ := t
  cases n with
  | zero => rfl
  | succ n => exact absurd h0 (Nat.succ_ne_zero n)

theorem outsAt_later (c : Dev nD) (t : Fin cfg0.N) (h1 : 1 ≤ t.val) :
    outsAt m c t.val t.isLt = outLater c (grid0.coords t) (ms0_0 t) (hs0_0 t) (ms0_1 t) (hs0_1 t) (ms0_2 t) (hs0_2 t) (ms0_3 t) (hs0_3 t)
      (fun h => absurd ((first_iff t).mp h) (by omega)) ((later_iff t).mpr h1) (iblk m c 0 t) (iblk m c 1 t)
      (outsAt m c (t.val - 1) (Nat.lt_of_le_of_lt (Nat.sub_le _ _) t.isLt)) := by
  obtain ⟨n, hn⟩ := t
  cases n with
  | zero => exact absurd h1 (Nat.not_succ_le_zero 0)
  | succ n => rfl

/-! ## The pipeline's proof data -/

/-- The arrays as the region finds them; after the body at point t each input's buffer at its block and the two
    totals' buffers at the running totals; the standing invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point each total's buffer holds what the body left at the point before: it is not the first point,
    and the buffer was not written back in between (that happens after the last point only). -/
theorem before2_later (c : Dev nD) (t : Fin cfg0.N) (h1 : 1 ≤ t.val) (d) :
    (dats m 0 c).before 2 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    live2 (fun _ _ => rfl)]
  dsimp only [dats]
theorem before3_later (c : Dev nD) (t : Fin cfg0.N) (h1 : 1 ≤ t.val) (d) :
    (dats m 0 c).before 3 t d = (outsAt m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0_0 t) fullShare (iblk m c 0 t) := by
  unfold Dat.leavesExact; rw [live0 _, after0]
theorem leaves1 (c : Dev nD) (t : Fin cfg0.N) :
    (dats m 0 c).leavesExact 1 t = owns (c : Thread nD τ) (ms0_1 t) fullShare (iblk m c 1 t) := by
  unfold Dat.leavesExact; rw [live1 _, after1]
theorem leaves2 (c : Dev nD) (t : Fin cfg0.N) :
    (dats m 0 c).leavesExact 2 t = owns (c : Thread nD τ) (ms0_2 t) fullShare (outsAt m c t.val t.isLt).1 := by
  unfold Dat.leavesExact; rw [live2 _, after2]
theorem leaves3 (c : Dev nD) (t : Fin cfg0.N) :
    (dats m 0 c).leavesExact 3 t = owns (c : Thread nD τ) (ms0_3 t) fullShare (outsAt m c t.val t.isLt).2 := by
  unfold Dat.leavesExact; rw [live3 _, after3]

set_option maxHeartbeats 800000 in
/-- The body at any point: the inputs' memrefs hold their blocks; at the first point the totals' buffers hold
    anything and the first-point run applies; at a later point they hold the running totals and the later-point run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val = 0
  · rw [outsAt_first m c t h0]
    unfold outFirst
    dsimp only
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => absurd ((later_iff t).mp h) (by omega))
      (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 (F := F) c _ _ _ _ _ _ _ _ _ _ _ _ _)
    unfold owns; iexists _; isplitr
    swap; · iexact H3
    ipureintro; exact View.read_writes_of_cover _ _ _ _ _ (coverFirst3 (F := F) c _ _ _ _ _ _ _ _ _ _ _ _ _)
  · have h1 : 1 ≤ t.val := Nat.one_le_iff_ne_zero.mpr h0
    rw [outsAt_later m c t h1]
    simp only [before2_later m c t h1, before3_later m c t h1]
    unfold outLater
    dsimp only
    iintro ⟨HΦ, Ho, ⟨%d0, H0⟩, ⟨%d1, H1⟩, ⟨%d2, H2⟩, ⟨%d3, H3⟩⟩
    iapply ((runLater c (grid0.coords t) _ _ _ _ _ _ _ _ (fun h => absurd ((first_iff t).mp h) (by omega)) ((later_iff t).mpr h1)
      (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 (F := F) c _ _ _ _ _ _ _ _ _ _ _ _ _ _ _)
    unfold owns; iexists _; isplitr
    swap; · iexact H3
    ipureintro; exact View.read_writes_of_cover _ _ _ _ _ (coverLater3 (F := F) c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every array of the pipeline at what the proof data
    give and every other buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealPoints.lean ====
/-
  The sixteen grid points of the block kernel fall into two kinds: the first point, where the two running totals
  (the sum of masked squared errors and the count of kept entries) are SET to the block's values, and the fifteen
  later points, where the block's values are ADDED to what the point before left. The kernel decides the kind by
  two conditions on the grid coordinate; here they are put in closed form over the grid, and each window is shown
  to be in use at every point (one of the two conditions always holds, so the totals' windows are never idle).
-/
import proofs.«125894_g41051297415206_cont_8to1_b_1504_3_alg».proof.Proof.Gen.KernelIdeal.Frame
import proofs.«125894_g41051297415206_cont_8to1_b_1504_3_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The kernel's first condition (the coordinate equals 0) holds at the first point only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- Its second condition (the coordinate differs from 0) holds from the second point on. -/
theorem later_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- The input windows are read at every point. -/
theorem live0 : ∀ i : grid0.Coords, cfg0.idle 0 i = false := fun _ => rfl
theorem live1 : ∀ i : grid0.Coords, cfg0.idle 1 i = false := fun _ => rfl

/-- At every coordinate one of the two conditions holds: a window stored under both is never idle. -/
theorem some_cond : ∀ n : Fin 16,
    (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by
  decide +kernel

/-- The two totals' windows are stored at every point. -/
theorem live2 : ∀ i : grid0.Coords, cfg0.idle 2 i = false := fun i => some_cond (i 0)
theorem live3 : ∀ i : grid0.Coords, cfg0.idle 3 i = false := fun i => some_cond (i 0)

/-- Each window's current staging memref at point t, as the pipeline passes it to the body, and its wholeness. -/
abbrev ms0_0 (t : Fin cfg0.N) : Memref sig .tc .vmem S64x27278 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x27278 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

/-- One staging buffer of each total's window, through which its contents are stated. -/
abbrev VO2 : View sig .tc .vmem S1x1 .f32 := (Memref.whole cc0_stg2_0 : Memref sig .tc .vmem S1x1 .f32).view
abbrev VO3 : View sig .tc .vmem S1x1 .f32 := (Memref.whole cc0_stg3_0 : Memref sig .tc .vmem S1x1 .f32).view

end Cert.KernelIdeal.Hand

end
-- ==== Proof.IdealRunFirst.lean ====
/-
  The body at the FIRST grid point: it loads the two input blocks, and stores the block's masked sum of squared
  errors into the first total's buffer and the block's count of kept entries into the second, whatever those
  buffers held. What each buffer ends with is recorded as the list of pieces the stores wrote.
-/
import proofs.«125894_g41051297415206_cont_8to1_b_1504_3_alg».proof.Proof.IdealPoints

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the first condition holds and the second does not: on whole staging memrefs, the inputs' at
    their contents and the totals' at anything, the body runs to the continuation with the inputs' as they were and
    each total's buffer with its pieces written. -/
noncomputable def runFirst (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 : Vec F S64x27278 .f32) (x1 : Vec F S64x27278 .f32) :
    Σ' (L2 : List (View.Piece (Elt F) S1x1 .f32)) (L3 : List (View.Piece (Elt F) S1x1 .f32)),
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__mse_block_kernel i arg1 harg1 arg2 harg2 arg3 harg3 arg4 harg4) K := by
  refine ⟨?_, ?_, fun E K => ?run⟩
  case run =>
    simp only [cc0__mse_block_kernel_eq_skeleton]; unfold cc0__mse_block_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.IdealRunLater.lean ====
/-
  The body at a LATER grid point: it loads the two input blocks and the two running totals, and stores each total
  plus the block's value (the masked sum of squared errors, the count of kept entries) back into its buffer.
  What each buffer ends with is recorded as the list of pieces the stores wrote.
-/
import proofs.«125894_g41051297415206_cont_8to1_b_1504_3_alg».proof.Proof.IdealPoints

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the first condition fails and the second holds: on whole staging memrefs, the inputs' at their
    contents and the totals' at their running contents, the body runs to the continuation with the inputs' as they
    were and each total's buffer with its pieces written. -/
noncomputable def runLater (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 : Vec F S64x27278 .f32) (x1 : Vec F S64x27278 .f32) (xo2 : Vec F S1x1 .f32) (xo3 : Vec F S1x1 .f32) :
    Σ' (L2 : List (View.Piece (Elt F) S1x1 .f32)) (L3 : List (View.Piece (Elt F) S1x1 .f32)),
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)) -∗ K ⟨⟩))
          ⊢ wp frame (wpE (defs₀ (F := F)) Variants.none c none) E (cc0__mse_block_kernel i arg1 harg1 arg2 harg2 arg3 harg3 arg4 harg4) K := by
  refine ⟨?_, ?_, fun E K => ?run⟩
  case run =>
    simp only [cc0__mse_block_kernel_eq_skeleton]; unfold cc0__mse_block_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.IdealFrame.lean ====
/-
  The pipeline's run, point by point. After the first point each total's buffer holds what the first-point body
  wrote; after every later point it holds what the later-point body wrote over what the point before left (the
  totals' block index never moves and the buffers are written back only after the last point, so nothing touches
  them in between). With that as the proof data, the body's obligation holds at every point, the pipeline runs, and
  the program's two argument arrays end as they began.
-/
import proofs.«125894_g41051297415206_cont_8to1_b_1504_3_alg».proof.Proof.IdealRunFirst
import proofs.«125894_g41051297415206_cont_8to1_b_1504_3_alg».proof.Proof.IdealRunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two bodies leave in the totals' buffers -/

theorem coverFirst2 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 x1 : Vec F S64x27278 .f32) (y : S1x1.Idx) :
    ∃ pc ∈ (runFirst c i arg1 harg1 arg2 harg2 arg3 harg3 arg4 harg4 hc1 hc2 x0 x1).1, y ∈ pc.1.set :=
  View.cover_of_tiledL (runFirst c i arg1 harg1 arg2 harg2 arg3 harg3 arg4 harg4 hc1 hc2 x0 x1).1 S1x1.size (by sl_kernel_rfl) y

theorem coverFirst3 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 x1 : Vec F S64x27278 .f32) (y : S1x1.Idx) :
    ∃ pc ∈ (runFirst c i arg1 harg1 arg2 harg2 arg3 harg3 arg4 harg4 hc1 hc2 x0 x1).2.1, y ∈ pc.1.set :=
  View.cover_of_tiledL (runFirst c i arg1 harg1 arg2 harg2 arg3 harg3 arg4 harg4 hc1 hc2 x0 x1).2.1 S1x1.size (by sl_kernel_rfl) y

theorem coverLater2 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 x1 : Vec F S64x27278 .f32) (xo2 xo3 : Vec F S1x1 .f32) (y : S1x1.Idx) :
    ∃ pc ∈ (runLater c i arg1 harg1 arg2 harg2 arg3 harg3 arg4 harg4 hc1 hc2 x0 x1 xo2 xo3).1, y ∈ pc.1.set :=
  View.cover_of_tiledL (runLater c i arg1 harg1 arg2 harg2 arg3 harg3 arg4 harg4 hc1 hc2 x0 x1 xo2 xo3).1 S1x1.size (by sl_kernel_rfl) y

theorem coverLater3 (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 x1 : Vec F S64x27278 .f32) (xo2 xo3 : Vec F S1x1 .f32) (y : S1x1.Idx) :
    ∃ pc ∈ (runLater c i arg1 harg1 arg2 harg2 arg3 harg3 arg4 harg4 hc1 hc2 x0 x1 xo2 xo3).2.1, y ∈ pc.1.set :=
  View.cover_of_tiledL (runLater c i arg1 harg1 arg2 harg2 arg3 harg3 arg4 harg4 hc1 hc2 x0 x1 xo2 xo3).2.1 S1x1.size (by sl_kernel_rfl) y

/-- What the first-point body leaves in the two totals' buffers: its pieces read back. -/
def outFirst (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : k0_cond1 i = 1#1) (hc2 : ¬k0_cond2 i = 1#1)
    (x0 x1 : Vec F S64x27278 .f32) : Vec F S1x1 .f32 × Vec F S1x1 .f32 :=
  (VO2.read (Elt F) (VO2.writes (Elt F) VO2.junk (runFirst c i arg1 harg1 arg2 harg2 arg3 harg3 arg4 harg4 hc1 hc2 x0 x1).1),
   VO3.read (Elt F) (VO3.writes (Elt F) VO3.junk (runFirst c i arg1 harg1 arg2 harg2 arg3 harg3 arg4 harg4 hc1 hc2 x0 x1).2.1))

/-- What a later-point body leaves there, over what the point before left. -/
def outLater (c : Dev nD) (i : grid0.Coords) (arg1 : Memref sig .tc .vmem S64x27278 .f32) (harg1 : arg1.IsWhole)
    (arg2 : Memref sig .tc .vmem S64x27278 .f32) (harg2 : arg2.IsWhole) (arg3 : Memref sig .tc .vmem S1x1 .f32) (harg3 : arg3.IsWhole)
    (arg4 : Memref sig .tc .vmem S1x1 .f32) (harg4 : arg4.IsWhole) (hc1 : ¬k0_cond1 i = 1#1) (hc2 : k0_cond2 i = 1#1)
    (x0 x1 : Vec F S64x27278 .f32) (xo : Vec F S1x1 .f32 × Vec F S1x1 .f32) : Vec F S1x1 .f32 × Vec F S1x1 .f32 :=
  (VO2.read (Elt F) (VO2.writes (Elt F) VO2.junk (runLater c i arg1 harg1 arg2 harg2 arg3 harg3 arg4 harg4 hc1 hc2 x0 x1 xo.1 xo.2).1),
   VO3.read (Elt F) (VO3.writes (Elt F) VO3.junk (runLater c i arg1 harg1 arg2 harg2 arg3 harg3 arg4 harg4 hc1 hc2 x0 x1 xo.1 xo.2).2.1))

/-! ## The totals after each point -/

theorem not_later_zero (hn : 0 < cfg0.N) : ¬k0_cond2 (grid0.coords ⟨0, hn⟩) = 1#1 := fun h =>
  absurd ((later_iff ⟨0, hn⟩).mp h) (Nat.not_succ_le_zero 0)
theorem not_first_succ (n : ℕ) (hn : n + 1 < cfg0.N) : ¬k0_cond1 (grid0.coords ⟨n + 1, hn⟩) = 1#1 := fun h =>
  absurd ((first_iff ⟨n + 1, hn⟩).mp h) (Nat.succ_ne_zero n)

/-- The two totals' buffers after the body at position n: the first-point body's result at 0, and at n + 1 the
    later-point body's result over what position n left. -/
def outsAt (c : Dev nD) : (n : ℕ) → n < cfg0.N → Vec F S1x1 .f32 × Vec F S1x1 .f32
  | 0, hn => outFirst c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) ((first_iff ⟨0, hn⟩).mpr rfl) (not_later_zero hn)
      (iblk m c 0 ⟨0, hn⟩) (iblk m c 1 ⟨0, hn⟩)
  | n + 1, hn => outLater c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (not_first_succ n hn)
      ((later_iff ⟨n + 1, hn⟩).mpr (Nat.succ_pos n)) (iblk m c 0 ⟨n + 1, hn⟩) (iblk m c 1 ⟨n + 1, hn⟩)
      (outsAt c n (Nat.lt_of_succ_lt hn))

theorem outsAt_first (c : Dev nD) (t : Fin cfg0.N) (h0 : t.val = 0) :
    outsAt m c t.val t.isLt = outFirst c (grid0.coords t) (ms0_0 t) (hs0_0 t) (ms0_1 t) (hs0_1 t) (ms0_2 t) (hs0_2 t) (ms0_3 t) (hs0_3 t)
      ((first_iff t).mpr h0) (fun h => absurd ((later_iff t).mp h) (by omega)) (iblk m c 0 t) (iblk m c 1 t) := by
  obtain ⟨n, hn⟩ := t
  cases n with
  | zero => rfl
  | succ n => exact absurd h0 (Nat.succ_ne_zero n)

theorem outsAt_later (c : Dev nD) (t : Fin cfg0.N) (h1 : 1 ≤ t.val) :
    outsAt m c t.val t.isLt = outLater c (grid0.coords t) (ms0_0 t) (hs0_0 t) (ms0_1 t) (hs0_1 t) (ms0_2 t) (hs0_2 t) (ms0_3 t) (hs0_3 t)
      (fun h => absurd ((first_iff t).mp h) (by omega)) ((later_iff t).mpr h1) (iblk m c 0 t) (iblk m c 1 t)
      (outsAt m c (t.val - 1) (Nat.lt_of_le_of_lt (Nat.sub_le _ _) t.isLt)) := by
  obtain ⟨n, hn⟩ := t
  cases n with
  | zero => exact absurd h1 (Nat.not_succ_le_zero 0)
  | succ n => rfl

/-! ## The pipeline's proof data -/

/-- The arrays as the region finds them; after the body at point t each input's buffer at its block and the two
    totals' buffers at the running totals; the standing invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point each total's buffer holds what the body left at the point before: it is not the first point,
    and the buffer was not written back in between (that happens after the last point only). -/
theorem before2_later (c : Dev nD) (t : Fin cfg0.N) (h1 : 1 ≤ t.val) (d) :
    (dats m 0 c).before 2 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    live2 (fun _ _ => rfl)]
  dsimp only [dats]
theorem before3_later (c : Dev nD) (t : Fin cfg0.N) (h1 : 1 ≤ t.val) (d) :
    (dats m 0 c).before 3 t d = (outsAt m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0_0 t) fullShare (iblk m c 0 t) := by
  unfold Dat.leavesExact; rw [live0 _, after0]
theorem leaves1 (c : Dev nD) (t : Fin cfg0.N) :
    (dats m 0 c).leavesExact 1 t = owns (c : Thread nD τ) (ms0_1 t) fullShare (iblk m c 1 t) := by
  unfold Dat.leavesExact; rw [live1 _, after1]
theorem leaves2 (c : Dev nD) (t : Fin cfg0.N) :
    (dats m 0 c).leavesExact 2 t = owns (c : Thread nD τ) (ms0_2 t) fullShare (outsAt m c t.val t.isLt).1 := by
  unfold Dat.leavesExact; rw [live2 _, after2]
theorem leaves3 (c : Dev nD) (t : Fin cfg0.N) :
    (dats m 0 c).leavesExact 3 t = owns (c : Thread nD τ) (ms0_3 t) fullShare (outsAt m c t.val t.isLt).2 := by
  unfold Dat.leavesExact; rw [live3 _, after3]

set_option maxHeartbeats 800000 in
/-- The body at any point: the inputs' memrefs hold their blocks; at the first point the totals' buffers hold
    anything and the first-point run applies; at a later point they hold the running totals and the later-point run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val = 0
  · rw [outsAt_first m c t h0]
    unfold outFirst
    dsimp only
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => absurd ((later_iff t).mp h) (by omega))
      (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 (F := F) c _ _ _ _ _ _ _ _ _ _ _ _ _)
    unfold owns; iexists _; isplitr
    swap; · iexact H3
    ipureintro; exact View.read_writes_of_cover _ _ _ _ _ (coverFirst3 (F := F) c _ _ _ _ _ _ _ _ _ _ _ _ _)
  · have h1 : 1 ≤ t.val := Nat.one_le_iff_ne_zero.mpr h0
    rw [outsAt_later m c t h1]
    simp only [before2_later m c t h1, before3_later m c t h1]
    unfold outLater
    dsimp only
    iintro ⟨HΦ, Ho, ⟨%d0, H0⟩, ⟨%d1, H1⟩, ⟨%d2, H2⟩, ⟨%d3, H3⟩⟩
    iapply ((runLater c (grid0.coords t) _ _ _ _ _ _ _ _ (fun h => absurd ((first_iff t).mp h) (by omega)) ((later_iff t).mpr h1)
      (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 (F := F) c _ _ _ _ _ _ _ _ _ _ _ _ _ _ _)
    unfold owns; iexists _; isplitr
    swap; · iexact H3
    ipureintro; exact View.read_writes_of_cover _ _ _ _ _ (coverLater3 (F := F) c _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every array of the pipeline at what the proof data
    give and every other buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.IdealPieces.lean ====
/-
  What the two bodies leave in the totals' buffers, as the body's own arithmetic: each buffer is written by one
  store covering its single entry, so reading the written pieces back gives that store's value, a function of the
  blocks the body loaded (and, at a later point, of the running total it loaded).
-/
import proofs.«125894_g41051297415206_cont_8to1_b_1504_3_alg».proof.Proof.IdealFrame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

/-! ## The pieces the two bodies wrote, as the body's arithmetic -/

section Pieces
variable {F : FTy → Type} [FloatOps F]

theorem hz : (![0, 0] : Fin 2 → Nat) = fun _ => 0 := funext fun a => by fin_cases a <;> rfl

/-- The first-point body leaves the block's masked sum of squares in the first total's buffer, -/
theorem outFirst_fst (c : Dev nD) (i : grid0.Coords) (a1 : Memref sig .tc .vmem S64x27278 .f32) (h1 : a1.IsWhole)
    (a2 : Memref sig .tc .vmem S64x27278 .f32) (h2 : a2.IsWhole) (a3 : Memref sig .tc .vmem S1x1 .f32) (h3 : a3.IsWhole)
    (a4 : Memref sig .tc .vmem S1x1 .f32) (h4 : a4.IsWhole) (hc1 : k0_cond1 i = 1#1) (hc2 : ¬k0_cond2 i = 1#1)
    (x0 x1 : Vec F S64x27278 .f32) :
    (outFirst c i a1 h1 a2 h2 a3 h3 a4 h4 hc1 hc2 x0 x1).1 = k0_pay2 x0 x1 := by
  unfold outFirst
  dsimp only
  rw [View.read_writes_eq_canon _ _ _ (coverFirst2 c i a1 h1 a2 h2 a3 h3 a4 h4 hc1 hc2 x0 x1)]
  unfold runFirst
  dsimp only
  sl_unfold_words
  rw [View.canon_unit_zero hz]
  simp only [View.readAt_eq_ld, h1.read_unread, h2.read_unread, View.ld_unit_zero (S := S64x27278) hz]

/-- and the block's count of kept entries in the second's. -/
theorem outFirst_snd (c : Dev nD) (i : grid0.Coords) (a1 : Memref sig .tc .vmem S64x27278 .f32) (h1 : a1.IsWhole)
    (a2 : Memref sig .tc .vmem S64x27278 .f32) (h2 : a2.IsWhole) (a3 : Memref sig .tc .vmem S1x1 .f32) (h3 : a3.IsWhole)
    (a4 : Memref sig .tc .vmem S1x1 .f32) (h4 : a4.IsWhole) (hc1 : k0_cond1 i = 1#1) (hc2 : ¬k0_cond2 i = 1#1)
    (x0 x1 : Vec F S64x27278 .f32) :
    (outFirst c i a1 h1 a2 h2 a3 h3 a4 h4 hc1 hc2 x0 x1).2 = k0_pay3 x1 := by
  unfold outFirst
  dsimp only
  rw [View.read_writes_eq_canon _ _ _ (coverFirst3 c i a1 h1 a2 h2 a3 h3 a4 h4 hc1 hc2 x0 x1)]
  unfold runFirst
  dsimp only
  sl_unfold_words
  rw [View.canon_unit_zero hz]
  simp only [View.readAt_eq_ld, h1.read_unread, h2.read_unread, View.ld_unit_zero (S := S64x27278) hz]

/-- A later-point body leaves the running total plus the block's value in each buffer. -/
theorem outLater_fst (c : Dev nD) (i : grid0.Coords) (a1 : Memref sig .tc .vmem S64x27278 .f32) (h1 : a1.IsWhole)
    (a2 : Memref sig .tc .vmem S64x27278 .f32) (h2 : a2.IsWhole) (a3 : Memref sig .tc .vmem S1x1 .f32) (h3 : a3.IsWhole)
    (a4 : Memref sig .tc .vmem S1x1 .f32) (h4 : a4.IsWhole) (hc1 : ¬k0_cond1 i = 1#1) (hc2 : k0_cond2 i = 1#1)
    (x0 x1 : Vec F S64x27278 .f32) (xo : Vec F S1x1 .f32 × Vec F S1x1 .f32) :
    (outLater c i a1 h1 a2 h2 a3 h3 a4 h4 hc1 hc2 x0 x1 xo).1 = k0_pay4 x0 x1 xo.1 := by
  unfold outLater
  dsimp only
  rw [View.read_writes_eq_canon _ _ _ (coverLater2 c i a1 h1 a2 h2 a3 h3 a4 h4 hc1 hc2 x0 x1 xo.1 xo.2)]
  unfold runLater
  dsimp only
  sl_unfold_words
  rw [View.canon_unit_zero hz]
  simp only [View.readAt_eq_ld, h1.read_unread, h2.read_unread, h3.read_unread, h4.read_unread,
    View.ld_unit_zero (S := S64x27278) hz, View.ld_unit_zero (S := S1x1) hz]

theorem outLater_snd (c : Dev nD) (i : grid0.Coords) (a1 : Memref sig .tc .vmem S64x27278 .f32) (h1 : a1.IsWhole)
    (a2 : Memref sig .tc .vmem S64x27278 .f32) (h2 : a2.IsWhole) (a3 : Memref sig .tc .vmem S1x1 .f32) (h3 : a3.IsWhole)
    (a4 : Memref sig .tc .vmem S1x1 .f32) (h4 : a4.IsWhole) (hc1 : ¬k0_cond1 i = 1#1) (hc2 : k0_cond2 i = 1#1)
    (x0 x1 : Vec F S64x27278 .f32) (xo : Vec F S1x1 .f32 × Vec F S1x1 .f32) :
    (outLater c i a1 h1 a2 h2 a3 h3 a4 h4 hc1 hc2 x0 x1 xo).2 = k0_pay5 x1 xo.2 := by
  unfold outLater
  dsimp only
  rw [View.read_writes_eq_canon _ _ _ (coverLater3 c i a1 h1 a2 h2 a3 h3 a4 h4 hc1 hc2 x0 x1 xo.1 xo.2)]
  unfold runLater
  dsimp only
  sl_unfold_words
  rw [View.canon_unit_zero hz]
  simp only [View.readAt_eq_ld, h1.read_unread, h2.read_unread, h3.read_unread, h4.read_unread,
    View.ld_unit_zero (S := S64x27278) hz, View.ld_unit_zero (S := S1x1) hz]

end Pieces

end Cert.KernelIdeal.Pieces

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.Spec.lean ====
/-
  A masked mean of squared errors, as plain mathematics over index types, apart from any program.

  The quantity is  (∑ over all entries with target ≠ -1 of (output - target)²) / (number of such entries).
  Two programs compute it in different arrangements: one sums the 1024 × 27278 entries at once and counts
  the kept entries in 32-bit integers; the other walks 16 blocks of 64 rows, sums each block and adds the
  block sums up one after the other, counting in floats (each kept entry contributing the number 1).
  What is proved here is that these arrangements agree:

  * a sum read through a reshape is the sum itself (a reshape is a bijection of indices);
  * the sum over 1024 rows is the sum over 16 blocks of 64 consecutive rows (associativity of `+` only,
    so it holds on the extended reals with no finiteness assumption);
  * adding block sums one after the other gives the sum over the blocks;
  * a sum of 32-bit words each 0 or 1, over fewer than 2³¹ indices, does not wrap: read as a signed
    integer it is the number of ones; and the sum of the same 0/1 values as reals is that number too.
-/
import Idealize.ShloMosaic.PureOps.Ideal.Laws
import Idealize.ShloMosaic.PureOps.Reduce
import Idealize.ShloMosaic.Lib.ValueIdx
import proofs.«125894_g41051297415206_cont_8to1_b_1504_3_alg».proof.Proof.LibTileSum

noncomputable section

namespace Cert.MaskedMse

open Idealize.ShloMosaic Idealize.ShloMosaic.ValueIdx Finset

/-- The whole array's shape and one block's. -/
abbrev SArr : Shape := ⟨2, ![1024, 27278]⟩
abbrev SBlk : Shape := ⟨2, ![64, 27278]⟩

/-! ## Sums and reshapes -/

/-- A reshape lists the same elements in the same row-major order, so summing through it changes nothing. -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

/-! ## Rows taken block by block -/

/-- Entry (r, q) of block t is entry (64·t + r, q) of the array. -/
def blockRow (t : Fin 16) (y : SBlk.Idx) : SArr.Idx :=
  ix2 ⟨64 * t.val + (y 0).val, by have := idx2_lt0 y; have := t.isLt; omega⟩ (y 1)

theorem blockRow_ix2 (t : Fin 16) (r : Fin 64) (q : Fin 27278) :
    blockRow t (ix2 r q) = ix2 ⟨64 * t.val + r.val, by have := r.isLt; have := t.isLt; omega⟩ q := rfl

/-- The sum along row n, as a function of the natural number n (zero past the last row). -/
def rowSum {M : Type*} [AddCommMonoid M] (g : SArr.Idx → M) (n : ℕ) : M :=
  if h : n < 1024 then ∑ q : Fin 27278, g (ix2 ⟨n, h⟩ q) else 0

theorem rowSum_of_lt {M : Type*} [AddCommMonoid M] (g : SArr.Idx → M) (n : ℕ) (h : n < 1024) :
    rowSum g n = ∑ q : Fin 27278, g (ix2 ⟨n, h⟩ q) := dif_pos h

/-- The sum over the array is the sum over the 16 blocks of each block's sum. -/
theorem sum_rows_blocks {M : Type*} [AddCommMonoid M] (g : SArr.Idx → M) :
    ∑ i, g i = ∑ t : Fin 16, ∑ y : SBlk.Idx, g (blockRow t y) := by
  rw [sum_idx2]
  have e1 : ∑ p : Fin 1024, ∑ q : Fin 27278, g (ix2 p q) = ∑ p : Fin 1024, rowSum g p.val :=
    Finset.sum_congr rfl fun p _ => (rowSum_of_lt g p.val p.isLt).symm
  have e2 : ∑ n ∈ range 1024, rowSum g n = ∑ n ∈ range (16 * 64), rowSum g n := rfl
  rw [e1, Fin.sum_univ_eq_sum_range (rowSum g) 1024, e2, TileSum.sum_range_mul (rowSum g) 16 64,
    ← Fin.sum_univ_eq_sum_range (fun s => ∑ j ∈ range 64, rowSum g (64 * s + j)) 16]
  refine Finset.sum_congr rfl fun t _ => ?_
  rw [← Fin.sum_univ_eq_sum_range (fun j => rowSum g (64 * t.val + j)) 64, sum_idx2]
  refine Finset.sum_congr rfl fun r _ => ?_
  have hlt : 64 * t.val + r.val < 1024 := by have := r.isLt; have := t.isLt; omega
  rw [rowSum_of_lt g _ hlt]
  rfl

/-! ## Adding block sums one after the other -/

/-- The running total after block n: block 0's value, then each later block's value added on. -/
def accAt {M : Type*} [AddCommMonoid M] (f : ℕ → M) : ℕ → M
  | 0 => f 0
  | n + 1 => accAt f n + f (n + 1)

theorem accAt_eq_sum {M : Type*} [AddCommMonoid M] (f : ℕ → M) (n : ℕ) :
    accAt f n = ∑ s ∈ range (n + 1), f s := by
  induction n with
  | zero => simp [accAt]
  | succ n ih => rw [accAt, ih, ← sum_range_succ]

/-- After the last of 16 blocks the running total is the sum over all of them. -/
theorem accAt_last {M : Type*} [AddCommMonoid M] (f : ℕ → M) : accAt f 15 = ∑ t : Fin 16, f t.val := by
  rw [accAt_eq_sum, Fin.sum_univ_eq_sum_range f 16]

/-! ## Counting with words and with reals -/

/-- The cast of a finite sum of real numbers is the sum of the casts. -/
theorem coe_sum {ι : Type*} (s : Finset ι) (g : ι → ℝ) :
    ((∑ i ∈ s, g i : ℝ) : EReal) = ∑ i ∈ s, (g i : EReal) := by
  induction s using Finset.cons_induction with
  | empty => simp
  | cons a s ha ih => rw [sum_cons, sum_cons, EReal.coe_add, ih]

/-- A mask bit widened to a word, read as a signed integer, is the bit. -/
theorem toInt_setWidth_bit (b : BitVec 1) : (b.setWidth 32).toInt = (b.toNat : ℤ) := by
  by_cases h : b = 1#1
  · subst h; rfl
  · obtain rfl := eq_zero_of_ne_one h; rfl

theorem toNat_setWidth_bit (b : BitVec 1) : (b.setWidth 32).toNat = b.toNat := by
  by_cases h : b = 1#1
  · subst h; rfl
  · obtain rfl := eq_zero_of_ne_one h; rfl

theorem bit_toNat_le_one (b : BitVec 1) : b.toNat ≤ 1 := by
  have := b.isLt; omega

/-- Adding words up, in any order, gives the word of the sum of their values modulo 2³². -/
theorem toNat_fold_add {ι : Type*} (s : Finset ι) (x : ι → BitVec 32) :
    (s.fold IntOp.addi 0#32 x).toNat = (∑ i ∈ s, (x i).toNat) % 2 ^ 32 := by
  induction s using Finset.cons_induction with
  | empty => simp
  | cons a s ha ih =>
    rw [fold_cons, sum_cons]
    show (x a + s.fold IntOp.addi 0#32 x).toNat = _
    rw [BitVec.toNat_add, ih, Nat.add_mod_mod]

/-- Fewer than 2³¹ words, each 0 or 1: the word sum, read signed, is the number of ones. -/
theorem toInt_fold_bits {ι : Type*} [Fintype ι] (hcard : Fintype.card ι < 2 ^ 31) (b : ι → BitVec 1) :
    ((Finset.univ.fold IntOp.addi 0#32 fun i => (b i).setWidth 32).toInt : ℤ) = ((∑ i, (b i).toNat : ℕ) : ℤ) := by
  have hle : ∑ i, (b i).toNat ≤ Fintype.card ι := by
    calc ∑ i, (b i).toNat ≤ ∑ _i : ι, 1 := Finset.sum_le_sum fun i _ => bit_toNat_le_one (b i)
      _ = Fintype.card ι := by simp
  have hn : (Finset.univ.fold IntOp.addi 0#32 fun i => (b i).setWidth 32).toNat = ∑ i, (b i).toNat := by
    rw [toNat_fold_add]
    simp only [toNat_setWidth_bit]
    exact Nat.mod_eq_of_lt (by omega)
  rw [BitVec.toInt_eq_toNat_cond, hn, if_pos (by omega)]

/-- The same count taken in the reals: each kept entry contributes the number 1. -/
theorem sum_bits_real {ι : Type*} [Fintype ι] (b : ι → BitVec 1) :
    ∑ i, ((((b i).setWidth 32).toInt : ℝ) : EReal) = (((∑ i, (b i).toNat : ℕ) : ℝ) : EReal) := by
  simp only [toInt_setWidth_bit]
  rw [Nat.cast_sum, coe_sum]
  simp

/-- The array has 1024 · 27278 entries, fewer than 2³¹. -/
theorem card_arr_lt : Fintype.card SArr.Idx < 2 ^ 31 := by
  rw [Fintype.card_congr (idxEquiv2 (n0 := 1024) (n1 := 27278))]
  simp

/-! ## The quantity itself -/

/-- Whether an entry is kept: its target differs from -1 (the word is -1.0's). -/
def keep (t : EReal) : BitVec 1 := Ideal.cmp .une t (Ideal.ofBits .f32 0xBF800000#32)

/-- One entry's contribution to the sum: its squared error if kept, else zero. -/
def sqTerm (o t : EReal) : EReal :=
  Scalar.select (keep t) ((o - t) * (o - t)) (Ideal.ofBits .f32 0x00000000#32)

/-- The sum of the kept entries' squared errors over the whole array. -/
def totalSq (o t : SArr.Idx → EReal) : EReal := ∑ i, sqTerm (o i) (t i)

/-- The number of kept entries, as a real. -/
def totalCnt (t : SArr.Idx → EReal) : EReal := (((∑ i, (keep (t i)).toNat : ℕ) : ℝ) : EReal)

/-- The quotient of the two, as an array with no axes (the division is the host's, whatever it gives at 0/0). -/
def result (o t : SArr.Idx → EReal) : FVec Ideal ⟨0, ![]⟩ .f32 :=
  Host.divf (F := Ideal) (fun _ => totalSq o t) (fun _ => totalCnt t)

end Cert.MaskedMse

end
-- ==== Proof.IdealPayloads.lean ====
/-
  The body's arithmetic, read over the extended reals: the reduction over both axes of a block is the sum over
  every entry of the block, the summand being the squared error where the target differs from -1 and zero
  elsewhere; the count is the same sum of the mask bits, each widened to a word and converted to a float; and a
  later point adds these to the running totals it loaded.
-/
import proofs.«125894_g41051297415206_cont_8to1_b_1504_3_alg».proof.Proof.Gen.KernelIdeal.Skeleton
import proofs.«125894_g41051297415206_cont_8to1_b_1504_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.MaskedMse Idealize.ShloMosaic.ValueIdx

/-! ## The body's arithmetic over the extended reals -/

/-- Reduce both axes of a block, reshape the one result to a one-entry array: every entry of that is the sum over
    every entry of the block (stated for any block vector, so nothing of the block's own terms is opened). -/
theorem block_total (v : FVec Ideal S64x27278 .f32) :
    broadcast S1x1 (extractAt ![0, 0, 0] (shapeCast S1x1x1
      (multiReduction .add [1, 2] S1 (shapeCast S1x64x27278 v shapeCasts_S64x27278_S1x64x27278) 0x00000000#32
        reduces_S1x64x27278_S1 (.inl rfl) rfl) shapeCasts_S1_S1x1x1) inpos_S1x1x1_p0_0_0)
      = fun _ => ∑ y : S64x27278.Idx, v y := by
  funext j
  refine (Ideal.multiReduction_add_total _ 0x00000000#32 reduces_S1x64x27278_S1
    (fun b => by match b with | ⟨0, _⟩ => rfl) (.inl rfl) rfl _).trans ?_
  exact sum_shapeCast v shapeCasts_S64x27278_S1x64x27278

/-- One entry's summand in the body is the quantity's: the squared error where the target differs from -1, else 0. -/
theorem sq_apply (x0 x1 : Vec Ideal S64x27278 .f32) (y : S64x27278.Idx) :
    select (k0_pay1 (F := Ideal) x1) (mulf (subf x0 x1) (subf x0 x1))
      (broadcast S64x27278 (Scalar.ofBits (F := Ideal) .f32 0x00000000#32)) y = sqTerm (x0 y) (x1 y) := rfl

/-- One entry's contribution to the count: its mask bit, widened to a word and converted. -/
theorem cnt_apply (x1 : Vec Ideal S64x27278 .f32) (y : S64x27278.Idx) :
    (sitofp .f32 (extui 32 (k0_pay1 (F := Ideal) x1) natLt_1_32) : FVec Ideal S64x27278 .f32) y
      = ((((keep (x1 y)).setWidth 32).toInt : ℝ) : EReal) := rfl

/-- The block's masked sum of squares. -/
theorem pay2_eq (x0 x1 : Vec Ideal S64x27278 .f32) :
    k0_pay2 (F := Ideal) x0 x1 = fun _ => ∑ y : S64x27278.Idx, sqTerm (x0 y) (x1 y) := by
  unfold k0_pay2
  exact (block_total _).trans (funext fun _ => Finset.sum_congr rfl fun y _ => sq_apply x0 x1 y)

/-- The block's count of kept entries. -/
theorem pay3_eq (x1 : Vec Ideal S64x27278 .f32) :
    k0_pay3 (F := Ideal) x1 = fun _ => ∑ y : S64x27278.Idx, ((((keep (x1 y)).setWidth 32).toInt : ℝ) : EReal) := by
  unfold k0_pay3
  exact (block_total _).trans (funext fun _ => Finset.sum_congr rfl fun y _ => cnt_apply x1 y)

theorem pay4_eq (x0 x1 : Vec Ideal S64x27278 .f32) (xo : Vec Ideal S1x1 .f32) :
    k0_pay4 (F := Ideal) x0 x1 xo = fun j => xo j + ∑ y : S64x27278.Idx, sqTerm (x0 y) (x1 y) := by
  unfold k0_pay4
  rw [pay2_eq, shapeCast_self]
  rfl

theorem pay5_eq (x1 : Vec Ideal S64x27278 .f32) (xo : Vec Ideal S1x1 .f32) :
    k0_pay5 (F := Ideal) x1 xo = fun j => xo j + ∑ y : S64x27278.Idx, ((((keep (x1 y)).setWidth 32).toInt : ℝ) : EReal) := by
  unfold k0_pay5
  rw [pay3_eq, shapeCast_self]
  rfl

end Cert.KernelIdeal.KValue

end
-- ==== Proof.KernelTotals.lean ====
/-
  The running totals, point by point: after the first point the two buffers hold block 0's sum of squares and
  count, and after each later point what the point before left plus that block's values; by induction on the
  point they hold the running totals of the blocks' values.
-/
import proofs.«125894_g41051297415206_cont_8to1_b_1504_3_alg».proof.Proof.IdealPieces
import proofs.«125894_g41051297415206_cont_8to1_b_1504_3_alg».proof.Proof.IdealPayloads

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.MaskedMse Idealize.ShloMosaic.ValueIdx Cert.KernelIdeal.Hand Cert.KernelIdeal.Pieces

variable (m : (ℓ : Loc nD τ sig) → Buf (Elt Ideal) ℓ) (ρ : Dev nD → PrngReg)

theorem lt_N {n : ℕ} (h : n < 16) : n < cfg0.N := lt_of_lt_of_eq h N_0.symm

/-- The two input blocks at a point, at their literal type. -/
abbrev oblk (c : Dev nD) (t : Fin cfg0.N) : Vec Ideal S64x27278 .f32 := iblk m c 0 t
abbrev tblk (c : Dev nD) (t : Fin cfg0.N) : Vec Ideal S64x27278 .f32 := iblk m c 1 t

/-- Block n's masked sum of squares and its count (zero past the last block). -/
def blockSqAt (c : Dev nD) (t : Fin cfg0.N) : EReal := ∑ y : S64x27278.Idx, sqTerm (oblk m c t y) (tblk m c t y)
def blockCntAt (c : Dev nD) (t : Fin cfg0.N) : EReal :=
  ∑ y : S64x27278.Idx, ((((keep (tblk m c t y)).setWidth 32).toInt : ℝ) : EReal)
def blockSq (c : Dev nD) (n : ℕ) : EReal := if h : n < 16 then blockSqAt m c ⟨n, lt_N h⟩ else 0
def blockCnt (c : Dev nD) (n : ℕ) : EReal := if h : n < 16 then blockCntAt m c ⟨n, lt_N h⟩ else 0

theorem blockSq_of (c : Dev nD) (n : ℕ) (hn : n < cfg0.N) :
    blockSq m c n = blockSqAt m c ⟨n, hn⟩ :=
  dif_pos (lt_of_lt_of_eq hn N_0)
theorem blockCnt_of (c : Dev nD) (n : ℕ) (hn : n < cfg0.N) :
    blockCnt m c n = blockCntAt m c ⟨n, hn⟩ :=
  dif_pos (lt_of_lt_of_eq hn N_0)

/-- At any point, the body's four values over that point's blocks, in terms of the block's sum and count. -/
theorem first_sq (c : Dev nD) (t : Fin cfg0.N) :
    k0_pay2 (F := Ideal) (oblk m c t) (tblk m c t) = fun _ => blockSqAt m c t := pay2_eq _ _
theorem first_cnt (c : Dev nD) (t : Fin cfg0.N) :
    k0_pay3 (F := Ideal) (tblk m c t) = fun _ => blockCntAt m c t := pay3_eq _
theorem later_sq (c : Dev nD) (t : Fin cfg0.N) (xo : Vec Ideal S1x1 .f32) :
    k0_pay4 (F := Ideal) (oblk m c t) (tblk m c t) xo = fun j => xo j + blockSqAt m c t := pay4_eq _ _ _
theorem later_cnt (c : Dev nD) (t : Fin cfg0.N) (xo : Vec Ideal S1x1 .f32) :
    k0_pay5 (F := Ideal) (tblk m c t) xo = fun j => xo j + blockCntAt m c t := pay5_eq _ _

/-- The running total after the first block is that block's value; each later block's value is added on. -/
theorem accAt_first {M : Type} [AddCommMonoid M] (f : ℕ → M) : accAt f 0 = f 0 := rfl
theorem accAt_next {M : Type} [AddCommMonoid M] (f : ℕ → M) (n : ℕ) : accAt f (n + 1) = accAt f n + f (n + 1) := rfl

/-- At the first point the buffers are left at that block's sum and count. -/
theorem fst_at_first (c : Dev nD) (t : Fin cfg0.N) (h0 : t.val = 0) :
    (outsAt m c t.val t.isLt).1 = fun _ => blockSqAt m c t := by
  rw [outsAt_first m c t h0, outFirst_fst]
  exact first_sq m c t
theorem snd_at_first (c : Dev nD) (t : Fin cfg0.N) (h0 : t.val = 0) :
    (outsAt m c t.val t.isLt).2 = fun _ => blockCntAt m c t := by
  rw [outsAt_first m c t h0, outFirst_snd]
  exact first_cnt m c t

/-- At a later point they are left at what the point before left plus that block's sum and count. -/
theorem fst_at_later (c : Dev nD) (t : Fin cfg0.N) (h1 : 1 ≤ t.val) :
    (outsAt m c t.val t.isLt).1
      = fun j => (outsAt m c (t.val - 1) (Nat.lt_of_le_of_lt (Nat.sub_le _ _) t.isLt)).1 j + blockSqAt m c t := by
  rw [outsAt_later m c t h1, outLater_fst]
  exact later_sq m c t _
theorem snd_at_later (c : Dev nD) (t : Fin cfg0.N) (h1 : 1 ≤ t.val) :
    (outsAt m c t.val t.isLt).2
      = fun j => (outsAt m c (t.val - 1) (Nat.lt_of_le_of_lt (Nat.sub_le _ _) t.isLt)).2 j + blockCntAt m c t := by
  rw [outsAt_later m c t h1, outLater_snd]
  exact later_cnt m c t _

theorem base_sq (c : Dev nD) (h : 0 < cfg0.N) : blockSqAt m c ⟨0, h⟩ = accAt (blockSq m c) 0 :=
  ((accAt_first (blockSq m c)).trans (blockSq_of m c 0 h)).symm
theorem base_cnt (c : Dev nD) (h : 0 < cfg0.N) : blockCntAt m c ⟨0, h⟩ = accAt (blockCnt m c) 0 :=
  ((accAt_first (blockCnt m c)).trans (blockCnt_of m c 0 h)).symm

/-- After point n the two buffers hold the running totals of the blocks' values up to n. -/
theorem outsAt_eq (c : Dev nD) : ∀ (n : ℕ) (h : n < cfg0.N),
    (outsAt m c n h).1 = (fun _ => accAt (blockSq m c) n) ∧ (outsAt m c n h).2 = (fun _ => accAt (blockCnt m c) n)
  | 0, h => ⟨(fst_at_first m c ⟨0, h⟩ rfl).trans (funext fun _ => base_sq m c h),
      (snd_at_first m c ⟨0, h⟩ rfl).trans (funext fun _ => base_cnt m c h)⟩
  | n + 1, h =>
    ⟨(fst_at_later m c ⟨n + 1, h⟩ (Nat.succ_pos n)).trans (funext fun j =>
        (congrArg₂ (· + ·) (congrFun (outsAt_eq c n (Nat.lt_of_succ_lt h)).1 j) (blockSq_of m c (n + 1) h).symm).trans
          (accAt_next (blockSq m c) n).symm),
      (snd_at_later m c ⟨n + 1, h⟩ (Nat.succ_pos n)).trans (funext fun j =>
        (congrArg₂ (· + ·) (congrFun (outsAt_eq c n (Nat.lt_of_succ_lt h)).2 j) (blockCnt_of m c (n + 1) h).symm).trans
          (accAt_next (blockCnt m c) n).symm)⟩

end Cert.KernelIdeal.KValue

end
-- ==== Proof.KernelFinal.lean ====
/-
  The two one-entry result arrays after the run: the totals' buffers are written back once, after the last of the
  sixteen points, and that one block is the whole array, so each array ends holding its final total.
-/
import proofs.«125894_g41051297415206_cont_8to1_b_1504_3_alg».proof.Proof.KernelTotals

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.MaskedMse Idealize.ShloMosaic.ValueIdx Cert.KernelIdeal.Hand Cert.KernelIdeal.Pieces

variable (m : (ℓ : Loc nD τ sig) → Buf (Elt Ideal) ℓ) (ρ : Dev nD → PrngReg)

/-- The last point, the only one after which the totals are written back. -/
abbrev tLast : Fin cfg0.N := ⟨15, lt_N (by decide)⟩

theorem val_of_flush2 (t : Fin cfg0.N) (hf : (cfg0.win 2).flush t = true) : t.val = 15 := by
  have := (flush0_2 t).mp hf; have := lt_of_lt_of_eq t.isLt (show cfg0.N = 16 from N_0); omega
theorem val_of_flush3 (t : Fin cfg0.N) (hf : (cfg0.win 3).flush t = true) : t.val = 15 := by
  have := (flush0_3 t).mp hf; have := lt_of_lt_of_eq t.isLt (show cfg0.N = 16 from N_0); omega

/-- The two final totals as one-entry arrays. -/
abbrev sqArr (c : Dev nD) : S1x1.Idx → EReal := fun _ => accAt (blockSq m c) 15
abbrev cntArr (c : Dev nD) : S1x1.Idx → EReal := fun _ => accAt (blockCnt m c) 15

/-- Cutting a constant block, and reading a block of a constant array, both give the constant. -/
theorem cut_const2 (t : Fin cfg0.N) (v : EReal) :
    (cfg0.win 2).cut (grid0.coords t) (fun _ => v : Vec Ideal S1x1 .f32)
      = ((cfg0.win 2).blk t).view.read (Elt Ideal) (fun _ => v : S1x1.Idx → EReal) := rfl
theorem cut_const3 (t : Fin cfg0.N) (v : EReal) :
    (cfg0.win 3).cut (grid0.coords t) (fun _ => v : Vec Ideal S1x1 .f32)
      = ((cfg0.win 3).blk t).view.read (Elt Ideal) (fun _ => v : S1x1.Idx → EReal) := rfl

/-- What the write-back after the last point carries: the final totals (a one-entry block of a one-entry array). -/
theorem flushed2_eq (c : Dev nD) (t : Fin cfg0.N) (hf : (cfg0.win 2).flush t = true) :
    (dats m 0 c).flushed 2 t = ((cfg0.win 2).blk t).view.read (Elt Ideal) (sqArr m c) := by
  show (cfg0.win 2).cut (grid0.coords t) ((dats m 0 c).after 2 t) = _
  rw [after2, (outsAt_eq m c t.val t.isLt).1, val_of_flush2 t hf]
  exact cut_const2 t _
theorem flushed3_eq (c : Dev nD) (t : Fin cfg0.N) (hf : (cfg0.win 3).flush t = true) :
    (dats m 0 c).flushed 3 t = ((cfg0.win 3).blk t).view.read (Elt Ideal) (cntArr m c) := by
  show (cfg0.win 3).cut (grid0.coords t) ((dats m 0 c).after 3 t) = _
  rw [after3, (outsAt_eq m c t.val t.isLt).2, val_of_flush3 t hf]
  exact cut_const3 t _

/-- So the first result array ends holding the final sum of squares, -/
theorem final2 (c : Dev nD) : (dats m 0 c).arrAt 2 cfg0.N = sqArr m c :=
  (dats m 0 c).arrAt_eq_of_cover 2 (sqArr m c) (flushed2_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- and the second the final count. -/
theorem final3 (c : Dev nD) : (dats m 0 c).arrAt 3 cfg0.N = cntArr m c :=
  (dats m 0 c).arrAt_eq_of_cover 3 (cntArr m c) (flushed3_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

end Cert.KernelIdeal.KValue

end
-- ==== Proof.KernelRows.lean ====
/-
  The blocks are rows of the arrays: entry (r, q) of block t of either input is entry (64·t + r, q) of its array.
  So the sixteen blocks' sums add up to the sum over the whole array, and likewise for the count.
-/
import proofs.«125894_g41051297415206_cont_8to1_b_1504_3_alg».proof.Proof.KernelTotals

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.MaskedMse Idealize.ShloMosaic.ValueIdx Cert.KernelIdeal.Hand Cert.KernelIdeal.Pieces

variable (m : (ℓ : Loc nD τ sig) → Buf (Elt Ideal) ℓ) (ρ : Dev nD → PrngReg)

/-- The index maps over the grid: block t of either input starts at row block t, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The two argument arrays as the region finds them, at their literal type. -/
abbrev oarr (c : Dev nD) : SArr.Idx → EReal := V m c main_arg0
abbrev tarr (c : Dev nD) : SArr.Idx → EReal := V m c main_arg1

theorem oblk_apply (c : Dev nD) (t : Fin cfg0.N) (y : S64x27278.Idx) :
    oblk m c t y = oarr m c (blockRow ⟨t.val, lt_of_lt_of_eq t.isLt N_0⟩ y) := by
  obtain ⟨e0, e1, -, -⟩ := idx_facts t
  show V m c main_arg0 (((cfg0.win 0).blk t).view.emb y) = V m c main_arg0 _
  refine congrArg _ (funext fun a => Fin.ext ?_)
  match a with
  | ⟨0, _⟩ => show win0_0.index t (0 : Fin 2) * 64 + 1 * (y 0).val = 64 * t.val + (y 0).val; omega
  | ⟨1, _⟩ => show win0_0.index t (1 : Fin 2) * 27278 + 1 * (y 1).val = (y 1).val; omega

theorem tblk_apply (c : Dev nD) (t : Fin cfg0.N) (y : S64x27278.Idx) :
    tblk m c t y = tarr m c (blockRow ⟨t.val, lt_of_lt_of_eq t.isLt N_0⟩ y) := by
  obtain ⟨-, -, e0, e1⟩ := idx_facts t
  show V m c main_arg1 (((cfg0.win 1).blk t).view.emb y) = V m c main_arg1 _
  refine congrArg _ (funext fun a => Fin.ext ?_)
  match a with
  | ⟨0, _⟩ => show win0_1.index t (0 : Fin 2) * 64 + 1 * (y 0).val = 64 * t.val + (y 0).val; omega
  | ⟨1, _⟩ => show win0_1.index t (1 : Fin 2) * 27278 + 1 * (y 1).val = (y 1).val; omega

/-! ## The totals are the quantity's sums -/

/-- Sixteen blocks of 64 rows: the final sum of squares is the sum over the whole array. -/
theorem total_sq (c : Dev nD) : accAt (blockSq m c) 15 = totalSq (oarr m c) (tarr m c) := by
  rw [accAt_last]
  unfold totalSq
  rw [sum_rows_blocks]
  refine Finset.sum_congr rfl fun t _ => ?_
  rw [blockSq_of m c t.val (lt_N t.isLt)]
  unfold blockSqAt
  refine Finset.sum_congr rfl fun y _ => ?_
  rw [oblk_apply, tblk_apply]

/-- The final count is the number of kept entries of the whole array. -/
theorem total_cnt (c : Dev nD) : accAt (blockCnt m c) 15 = totalCnt (tarr m c) := by
  rw [accAt_last]
  unfold totalCnt
  rw [← sum_bits_real, sum_rows_blocks]
  refine Finset.sum_congr rfl fun t _ => ?_
  rw [blockCnt_of m c t.val (lt_N t.isLt)]
  unfold blockCntAt
  refine Finset.sum_congr rfl fun y _ => ?_
  rw [tblk_apply]

end Cert.KernelIdeal.KValue

end
-- ==== Proof.KernelValue.lean ====
/-
  The idealized kernel's program, read: after the region the two one-entry arrays hold the sum of the kept
  entries' squared errors and the number of kept entries over the whole array; the host lines read them as
  numbers and divide, which is the masked mean of squared errors.
-/
import proofs.«125894_g41051297415206_cont_8to1_b_1504_3_alg».proof.Proof.KernelFinal
import proofs.«125894_g41051297415206_cont_8to1_b_1504_3_alg».proof.Proof.KernelRows
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.MaskedMse Idealize.ShloMosaic.ValueIdx Cert.KernelIdeal.Hand Cert.KernelIdeal.Pieces

variable (m : (ℓ : Loc nD τ sig) → Buf (Elt Ideal) ℓ) (ρ : Dev nD → PrngReg)

/-- After the region the program reads the two one-entry arrays as numbers and divides: the quantity. -/
theorem tail_eq (c : Dev nD) :
    Pipeline.afterTail₀ cfgs (dats m) 0 (V0 m) [hostOps1] c main_v3 = result (oarr m c) (tarr m c) := by
  unfold Pipeline.afterTail₀
  show StableHlo.after hostOps1 _ (Proc.devRef .tc main_v3) = _
  after_results
  rw [(Pipeline.withArrays_arr spec0 launch0.win.arr_inj c _ _ 2).trans (final2 m c),
    (Pipeline.withArrays_arr spec0 launch0.win.arr_inj c _ _ 3).trans (final3 m c)]
  have ha : sqArr m c = fun _ => totalSq (oarr m c) (tarr m c) := funext fun _ => total_sq m c
  have hb : cntArr m c = fun _ => totalCnt (tarr m c) := funext fun _ => total_cnt m c
  rw [ha, hb]
  unfold result
  generalize totalSq (oarr m c) (tarr m c) = a
  generalize totalCnt (tarr m c) = b
  rfl

/-- Every weakly fair execution of the idealized kernel's program terminates with its result at the quantity
    of the two argument arrays, which end unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read as the masked mean of squared errors. Its program masks and squares entry by entry, sums
  the whole array in floats from 0, counts the kept entries by summing their mask bits as 32-bit integers from 0,
  converts that count to a float and divides. Entry by entry its summand is the quantity's; its float sum is
  0 plus the sum over all entries; and its integer count cannot wrap (the array has fewer than 2³¹ entries), so
  the converted count is the number of kept entries.
-/
import proofs.«125894_g41051297415206_cont_8to1_b_1504_3_alg».proof.Proof.Gen.ReferenceIdeal.Read
import proofs.«125894_g41051297415206_cont_8to1_b_1504_3_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Cert.MaskedMse

/-- The mask bit the reference computes at an entry is the quantity's. -/
theorem mask_apply (x1 : SArr.Idx → EReal) (j : SArr.Idx) : val_main_v1 (F := Ideal) x1 j = keep (x1 j) := by
  rw [val_main_v1_apply, val_main_v0_apply, val_main_cst_apply]
  rfl

/-- The summand the reference computes at an entry is the quantity's. -/
theorem summand_apply (x0 x1 : SArr.Idx → EReal) (j : SArr.Idx) :
    val_main_v4 (F := Ideal) x0 x1 j = sqTerm (x0 j) (x1 j) := by
  rw [val_main_v4_apply, mask_apply, val_main_v3_apply, val_main_v2_apply, val_main_call0_v1_apply,
    val_main_call0_v0_apply, val_main_cst_0_apply]
  rfl

/-- Its float sum is the sum of the kept entries' squared errors. -/
theorem sum_eq (x0 x1 : SArr.Idx → EReal) : val_main_v5 (F := Ideal) x0 x1 = fun _ => totalSq x0 x1 := by
  funext i
  rw [val_main_v5_apply, val_main_cst_1_apply]
  show Ideal.ofBits .f32 0x00000000#32 + _ = _
  rw [Ideal.ofBits_zero_f32, zero_add]
  exact Finset.sum_congr rfl fun j _ => summand_apply x0 x1 j

/-- Its integer count is the word sum of the widened mask bits. -/
theorem count_word (x1 : SArr.Idx → EReal) (i : S_.Idx) :
    val_main_v7 (F := Ideal) x1 i = Finset.univ.fold IntOp.addi 0#32 fun j => (keep (x1 j)).setWidth 32 := by
  unfold val_main_v7
  rw [Host.reduce_eq_fold, Finset.filter_true_of_mem fun j _ => funext fun a => a.elim0]
  have hf : (val_main_v6 (F := Ideal) x1) = fun j => (keep (x1 j)).setWidth 32 :=
    funext fun j => by rw [val_main_v6_apply, mask_apply]
  rw [hf]
  rfl

/-- Converted to a float it is the number of kept entries. -/
theorem count_eq (x1 : SArr.Idx → EReal) : val_main_v8 (F := Ideal) x1 = fun _ => totalCnt x1 := by
  funext i
  rw [val_main_v8_apply, count_word]
  show (((Finset.univ.fold IntOp.addi 0#32 fun j => (keep (x1 j)).setWidth 32).toInt : ℝ) : EReal) = _
  rw [toInt_fold_bits card_arr_lt, Int.cast_natCast]
  rfl

/-- So the reference's result is the quantity. -/
theorem result_eq (x0 x1 : SArr.Idx → EReal) : val_main_v9 (F := Ideal) x0 x1 = result x0 x1 := by
  unfold val_main_v9 result
  rw [sum_eq, count_eq]

end Cert.ReferenceIdeal.RefValue

end
-- ==== Proof.lean ====
/-
  The masked mean of squared errors, computed two ways, is one number.

  Both programs take two 1024 × 27278 arrays, the output and the target. The reference masks (target ≠ -1),
  squares the difference, sums the whole array, counts the kept entries in 32-bit integers and divides. The
  kernel walks sixteen blocks of 64 rows: at each it sums the block's masked squared errors and the block's mask
  (each kept entry as the number 1); the first block sets two running totals, the fifteen later blocks add to
  them; the host then divides one total by the other.

  Over the extended reals the two agree, with no assumption on the inputs beyond the statement's own:
  the summands are the same entry by entry; regrouping a sum of 1024 rows as sixteen sums of 64 rows uses only
  associativity of addition; the integer count cannot wrap (fewer than 2³¹ entries) and so, converted, is the
  real number of kept entries, which is also what summing the number 1 over them gives; and the final division
  is the same operation applied to equal operands. Each program runs to completion leaving its arguments
  untouched: for the kernel, at the real and at the word level, by running its body at the first and at a later
  grid point and carrying the totals from point to point; for the reference by reading its run back.
  The ideal pass rewrote nothing in the kernel, so that conjunct is trivial.
-/
import proofs.«125894_g41051297415206_cont_8to1_b_1504_3_alg».proof.Defs
import proofs.«125894_g41051297415206_cont_8to1_b_1504_3_alg».proof.Proof.Gen.Kernel
import proofs.«125894_g41051297415206_cont_8to1_b_1504_3_alg».proof.Proof.Gen.KernelIdeal
import proofs.«125894_g41051297415206_cont_8to1_b_1504_3_alg».proof.Proof.Gen.ReferenceIdeal
import proofs.«125894_g41051297415206_cont_8to1_b_1504_3_alg».proof.Proof.Gen.Pre_finite_inputs
import proofs.«125894_g41051297415206_cont_8to1_b_1504_3_alg».proof.Proof.BitsFrame
import proofs.«125894_g41051297415206_cont_8to1_b_1504_3_alg».proof.Proof.KernelValue
import proofs.«125894_g41051297415206_cont_8to1_b_1504_3_alg».proof.Proof.RefValue
import Idealize.ShloMosaic.Adequacy
import Idealize.ShloMosaic.Init

noncomputable section

namespace Cert.Proof

open Idealize.ShloMosaic Idealize.SL.Sem

/-- The word-level kernel runs and leaves its two arguments unchanged. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories agreeing on the two arguments, both programs end with the masked mean of squared errors of
    those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
